-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : FVec F S2000000x16 .f32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S2000000x16 .f32 := Host.absf main_arg1
  let main_cst_0 : FVec F S_ .f32 := constant S_ .f32 0x7F800000#32
  let main_v5 : FVec F S2000000x16 .f32 := broadcastInDim S2000000x16 ![] bcast_S_S2000000x16 main_cst_0
  let main_v6 : IVec S2000000x16 1 := cmpf .olt main_v4 main_v5
  let main_c_1 : IVec S_ 1 := constantI S_ 1 1#1
  let main_v7 : IVec S_ 1 := (fun x v => Host.reduce IntOp.andi x v reducesTo_S2000000x16_S_d0_1 h_S_) main_v6 main_c_1
  let main_v8 : IVec S_ 1 := andi main_v3 main_v7
  main_v8
-- ==== Kernel.lean ====
abbrev S2000000x16 : Shape := ⟨2, ![2000000, 16]⟩
abbrev S2000000x4 : Shape := ⟨2, ![2000000, 4]⟩
abbrev S5000x16 : Shape := ⟨2, ![5000, 16]⟩
abbrev S5000x4 : Shape := ⟨2, ![5000, 4]⟩
abbrev S5000x1 : Shape := ⟨2, ![5000, 1]⟩
abbrev S5000x3 : Shape := ⟨2, ![5000, 3]⟩
abbrev S5000 : Shape := ⟨1, ![5000]⟩
abbrev S5000x5 : Shape := ⟨2, ![5000, 5]⟩
abbrev S5000x7 : Shape := ⟨2, ![5000, 7]⟩

abbrev nBuf : Space → Nat
  | .hbm => 3
  | .vmem => 6
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S2000000x4, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x4, .f32⟩
  | .local _ .vmem, ⟨5, _⟩ => ⟨S5000x4, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x16_S5000x16_0_0 : ∀ a, (![0, 0] : Fin 2 → Nat) a + S5000x16.size a ≤ S5000x16.size a
  h_S5000x16 : 0 < S5000x16.numel
  slices_S5000x16_o0_0_S5000x1 : S5000x16.Slices ![0, 0] S5000x1
  inb_S5000x4_S5000x1_0_0 : ∀ a, (![0, 0] : Fin 2 → Nat) a + S5000x1.size a ≤ S5000x4.size a
  h_S5000x1 : 0 < S5000x1.numel
  slices_S5000x16_o0_1_S5000x3 : S5000x16.Slices ![0, 1] S5000x3
  reduces_S5000x3_S5000 : S5000x3.Reduces [1] S5000
  shapeCasts_S5000_S5000x1 : S5000.ShapeCasts S5000x1
  inb_S5000x4_S5000x1_0_1 : ∀ a, (![0, 1] : Fin 2 → Nat) a + S5000x1.size a ≤ S5000x4.size a
  slices_S5000x16_o0_4_S5000x5 : S5000x16.Slices ![0, 4] S5000x5
  reduces_S5000x5_S5000 : S5000x5.Reduces [1] S5000
  inb_S5000x4_S5000x1_0_2 : ∀ a, (![0, 2] : Fin 2 → Nat) a + S5000x1.size a ≤ S5000x4.size a
  slices_S5000x16_o0_9_S5000x7 : S5000x16.Slices ![0, 9] S5000x7
  reduces_S5000x7_S5000 : S5000x7.Reduces [1] S5000
  inb_S5000x4_S5000x1_0_3 : ∀ a, (![0, 3] : Fin 2 → Nat) a + S5000x1.size a ≤ S5000x4.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S2000000x16.size a
  hwx0_0 : ∀ i : grid0.Coords, EltTy.bits .f32 = 32 ∨ (Rect.block (s := S2000000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S2000000x16.size a
  hwx0_1 : ∀ i : grid0.Coords, EltTy.bits .f32 = 32 ∨ (Rect.block (s := S2000000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S2000000x4.size a
  hwx0_2 : ∀ i : grid0.Coords, EltTy.bits .f32 = 32 ∨ (Rect.block (s := S2000000x4) S5000x4.size (cc0_transform_2 i) (hinb0_2 i)).WholeWords (EltTy.packing .f32)

variable [Facts₀]

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x16 : Shape := ⟨2, ![2000000, 16]⟩
abbrev S16x4 : Shape := ⟨2, ![16, 4]⟩
abbrev S2000000x4 : Shape := ⟨2, ![2000000, 4]⟩

abbrev nBuf : Space → Nat
  | .hbm => 5
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S16x4, .f32⟩
  | .hbm, ⟨3, _⟩ => ⟨S2000000x16, .f32⟩
  | .hbm, ⟨4, _⟩ => ⟨S2000000x4, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2000000x16_S16x4_S2000000x4_1_0_0_1_n_n_wf : DotDims.WF S2000000x16 S16x4 S2000000x4 [1] [0] [0] [1] [] []

variable [Facts₀]

def dot_S2000000x16_S16x4_S2000000x4_1_0_0_1_n_n : DotDims S2000000x16 S16x4 S2000000x4 where
  lhsContracting := [1]
  rhsContracting := [0]
  lhsNonContracting := [0]
  rhsNonContracting := [1]
  lhsBatch := []
  rhsBatch := []
  wf := dot_S2000000x16_S16x4_S2000000x4_1_0_0_1_n_n_wf

class Facts : Prop extends Facts₀ where

variable [Facts]
-- ==== Proof.SegmentLaw.lean ====
/-
  The algebra that joins the two programs, on the extended reals.

  The reference contracts a row `z : Fin 16 → EReal` against a constant 16-by-4 table whose column `l` carries one
  scale `c l` on a contiguous run of rows (rows `o l … o l + w l − 1`) and zero elsewhere.  A product with zero is zero
  on every extended real, so the contraction keeps only the run's terms, `∑ₖ z (o + k) · c`.  The kernel sums the run
  first and scales afterwards, `(∑ₖ z (o + k)) · c`.  The two agree because multiplication by a factor that is
  nonnegative and not `⊤` distributes over every sum of extended reals, infinite summands included.
-/
import Idealize.ShloMosaic.PureOps.Ideal
import Idealize.ShloMosaic.PureOps.Ideal.Laws
import Idealize.ShloMosaic.Lib.ValueIdx

noncomputable section

open scoped BigOperators

namespace Cert.SegmentLaw

open Idealize.ShloMosaic

/-- A nonnegative factor other than `⊤` distributes over a finite sum of extended reals. -/
theorem sum_mul_of_nonneg_of_ne_top {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Contracting sixteen entries against a column that holds `c` on rows `o ≤ d < o + w` and zero elsewhere keeps
    exactly the `w` entries of that run, each times `c`. -/
theorem sum_run (z : Fin 16 → EReal) (c : EReal) (o w : ℕ) (h : o + w ≤ 16) :
    ∑ d : Fin 16, z d * (if o ≤ d.val ∧ d.val < o + w then c else 0)
      = ∑ k : Fin w, z ⟨o + k.val, by have := k.isLt; omega⟩ * c := by
  simp only [mul_ite, mul_zero]
  rw [← Finset.sum_filter]
  symm
  refine Finset.sum_bij (fun k _ => (⟨o + k.val, by have := k.isLt; omega⟩ : Fin 16)) ?_ ?_ ?_ ?_
  · intro k _
    have := k.isLt
    exact Finset.mem_filter.mpr ⟨Finset.mem_univ _, by show o ≤ o + k.val; omega, by show o + k.val < o + w; omega⟩
  · intro a _ b _ hab
    have := congrArg Fin.val hab
    exact Fin.ext (by simpa using this)
  · intro d hd
    obtain ⟨-, h1, h2⟩ := Finset.mem_filter.mp hd
    exact ⟨⟨d.val - o, by omega⟩, Finset.mem_univ _, Fin.ext (by show o + (d.val - o) = d.val; omega)⟩
  · intro k _; rfl

/-- The contraction against such a column is the run's sum, scaled: the form the kernel computes. -/
theorem contract_run (z : Fin 16 → EReal) {c : EReal} (h0 : 0 ≤ c) (ht : c ≠ ⊤) (o w : ℕ) (h : o + w ≤ 16) :
    ∑ d : Fin 16, z d * (if o ≤ d.val ∧ d.val < o + w then c else 0)
      = (∑ k : Fin w, z ⟨o + k.val, by have := k.isLt; omega⟩) * c := by
  rw [sum_run z c o w h, sum_mul_of_nonneg_of_ne_top _ _ h0 ht]

/-! ## The scales are nonnegative reals -/

/-- A float word with a clear sign bit and an exponent field that is not all ones denotes a nonnegative real. -/
theorem ieee_nonneg_real {n : ℕ} (e mm : ℕ) (b : BitVec n) (hs : (b.extractLsb' (e + mm) 1 == 1#1) = false)
    (hx : (b.extractLsb' mm e).toNat ≠ 2 ^ e - 1) :
    ∃ r : ℝ, 0 ≤ r ∧ Ideal.ieee e mm b = (r : EReal) := by
  unfold Ideal.ieee
  simp only [hs, Bool.false_eq_true, if_false, if_neg hx]
  by_cases h0 : (b.extractLsb' mm e).toNat = 0
  · rw [if_pos h0]; exact ⟨_, by positivity, rfl⟩
  · rw [if_neg h0]; exact ⟨_, by positivity, rfl⟩

/-- So such a 32-bit word, read as an extended real, is nonnegative and not `⊤`: a factor that distributes over sums. -/
theorem scale_ok (b : BitVec 32) (hs : (b.extractLsb' (8 + 23) 1 == 1#1) = false)
    (hx : (b.extractLsb' 23 8).toNat ≠ 2 ^ 8 - 1) : 0 ≤ Ideal.ofBits .f32 b ∧ Ideal.ofBits .f32 b ≠ ⊤ := by
  obtain ⟨r, hr, e⟩ := ieee_nonneg_real 8 23 b hs hx
  show 0 ≤ Ideal.ieee 8 23 b ∧ Ideal.ieee 8 23 b ≠ ⊤
  rw [e]
  exact ⟨EReal.coe_nonneg.mpr hr, EReal.coe_ne_top r⟩

/-! ## One output row -/

/-- The sum of the `w` entries of `z` from position `o` on. -/
def runSum (z : Fin 16 → EReal) (o w : ℕ) (h : o + w ≤ 16) : EReal :=
  ∑ k : Fin w, z ⟨o + k.val, by have := k.isLt; omega⟩

/-- The four outputs of one row `z` of sixteen products: the runs of widths 1, 3, 5, 7 summed, each scaled by the
    float nearest `1 / √(2 l + 1)` (the words are the programs' own literals; they are never evaluated). -/
def rowOut (z : Fin 16 → EReal) (l : Fin 4) : EReal :=
  match l with
  | ⟨0, _⟩ => runSum z 0 1 (by norm_num) * Ideal.ofBits .f32 0x3F800000#32
  | ⟨1, _⟩ => runSum z 1 3 (by norm_num) * Ideal.ofBits .f32 0x3F13CD3A#32
  | ⟨2, _⟩ => runSum z 4 5 (by norm_num) * Ideal.ofBits .f32 0x3EE4F92E#32
  | ⟨3, _⟩ => runSum z 9 7 (by norm_num) * Ideal.ofBits .f32 0x3EC1848F#32

/-- Column `l` of the constant table, as words: the scale on the column's run of rows, the zero word elsewhere. -/
def colWord (l : Fin 4) (d : Fin 16) : BitVec 32 :=
  match l with
  | ⟨0, _⟩ => if 0 ≤ d.val ∧ d.val < 0 + 1 then 0x3F800000#32 else 0x00000000#32
  | ⟨1, _⟩ => if 1 ≤ d.val ∧ d.val < 1 + 3 then 0x3F13CD3A#32 else 0x00000000#32
  | ⟨2, _⟩ => if 4 ≤ d.val ∧ d.val < 4 + 5 then 0x3EE4F92E#32 else 0x00000000#32
  | ⟨3, _⟩ => if 9 ≤ d.val ∧ d.val < 9 + 7 then 0x3EC1848F#32 else 0x00000000#32

/-- Contracting a row against column `l` of the table gives output `l` of the row. -/
theorem contract_col (z : Fin 16 → EReal) (l : Fin 4) :
    ∑ d : Fin 16, z d * Ideal.ofBits .f32 (colWord l d) = rowOut z l := by
  match l with
  | ⟨0, _⟩ =>
    simp only [colWord, rowOut, apply_ite (Ideal.ofBits .f32), Ideal.ofBits_zero_f32]
    exact contract_run z (scale_ok _ (by decide) (by decide)).1 (scale_ok _ (by decide) (by decide)).2 0 1 (by norm_num)
  | ⟨1, _⟩ =>
    simp only [colWord, rowOut, apply_ite (Ideal.ofBits .f32), Ideal.ofBits_zero_f32]
    exact contract_run z (scale_ok _ (by decide) (by decide)).1 (scale_ok _ (by decide) (by decide)).2 1 3 (by norm_num)
  | ⟨2, _⟩ =>
    simp only [colWord, rowOut, apply_ite (Ideal.ofBits .f32), Ideal.ofBits_zero_f32]
    exact contract_run z (scale_ok _ (by decide) (by decide)).1 (scale_ok _ (by decide) (by decide)).2 4 5 (by norm_num)
  | ⟨3, _⟩ =>
    simp only [colWord, rowOut, apply_ite (Ideal.ofBits .f32), Ideal.ofBits_zero_f32]
    exact contract_run z (scale_ok _ (by decide) (by decide)).1 (scale_ok _ (by decide) (by decide)).2 9 7 (by norm_num)

/-! ## The whole result -/

/-- The result both programs compute, as one function of the two 2,000,000-by-16 arguments: entry `(n, l)` is output
    `l` of the row of products `x (n, d) · y (n, d)`. -/
def rowsOut (x y : (⟨2, ![2000000, 16]⟩ : Shape).Idx → EReal) : (⟨2, ![2000000, 4]⟩ : Shape).Idx → EReal :=
  fun i => rowOut (fun d => x (ValueIdx.ix2 (i 0) d) * y (ValueIdx.ix2 (i 0) d)) (i 1)

end Cert.SegmentLaw

end
-- ==== Proof.KernelBlocks.lean ====
/-
  What the kernel leaves in its result array, at the ideal values.

  At grid point `t` the body multiplies the two 5000-by-16 input blocks entry by entry and writes four columns of the
  5000-by-4 output block: column `l` of row `r` is the sum of the products over the `l`-th run of the row's sixteen
  columns (runs of widths 1, 3, 5, 7), times that run's scale.  The four column stores tile the block, so the block
  is one function of the two input blocks (`blockOut`); block `t` of an input is rows `5000 t … 5000 t + 4999` of
  its array, so that function is the whole-array function `rowsOut` read through block `t` of the result; the 400
  blocks cover the 2,000,000 rows, so the result array ends holding `rowsOut` of the two argument arrays.
-/
import proofs.«128526_j53154515255873_1_alg».proof.Proof.Gen.KernelIdeal.Value
import proofs.«128526_j53154515255873_1_alg».proof.Proof.SegmentLaw
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.SegmentLaw

/-! ## The body's operations read at an index -/

theorem hz : (![0, 0] : Fin 2 → Nat) = fun _ => 0 := funext fun a => by fin_cases a <;> rfl

/-- A unit-stride slice of `w` columns from column `o` on, read at `(r, k)`, is the operand at `(r, o + k)`. -/
theorem slice_apply {w : ℕ} (o : ℕ) (v : FVec Ideal S5000x16 .f32) (h : S5000x16.Slices ![0, o] ⟨2, ![5000, w]⟩)
    (r : Fin 5000) (k : Fin w) (hk : o + k.val < 16) :
    extractStridedSlice ⟨2, ![5000, w]⟩ ![0, o] v h (ix2 r k) = v (ix2 r (⟨o + k.val, hk⟩ : Fin 16)) :=
  extractStridedSlice_apply ![0, o] v h (ix2 r k) (ix2 r (⟨o + k.val, hk⟩ : Fin 16)) fun a => by
    match a with
    | ⟨0, _⟩ => exact (Nat.zero_add _).symm
    | ⟨1, _⟩ => rfl

/-- A sum along the columns of a 5000-by-`w` vector, read at row `r`, is the sum of the row's `w` entries. -/
theorem lane_sum_apply {w : ℕ} (src : FVec Ideal ⟨2, ![5000, w]⟩ .f32) (h : Shape.Reduces ⟨2, ![5000, w]⟩ [1] S5000)
    (hφ : FKind.Formats .f32) (hacc : (0x00000000#32 : BitVec 32) = 0x00000000#32) (r : Fin 5000) :
    multiReduction .add [1] S5000 src 0x00000000#32 h hφ hacc (ix1 r) = ∑ k : Fin w, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A vector of 5000 entries viewed as a 5000-by-1 column reads, at `(r, 0)`, its entry `r`. -/
theorem column_apply (v : FVec Ideal S5000 .f32) (h : S5000.ShapeCasts S5000x1) (r : Fin 5000) (c : Fin 1) :
    shapeCast S5000x1 v h (ix2 r c) = v (ix1 r) :=
  shapeCast_apply v h (ix2 r c) (ix1 r) (by
    rw [Shape.rowMajor_val_one, Shape.rowMajor_val_two]
    show r.val = r.val * 1 + c.val
    have := c.isLt
    omega)

/-- The products of one row of the two blocks. -/
abbrev rowProd (x0 x1 : FVec Ideal S5000x16 .f32) (r : Fin 5000) : Fin 16 → EReal :=
  fun d => x0 (ix2 r d) * x1 (ix2 r d)

/-- A summed-and-scaled column: the run of `w` columns from `o` on of the entrywise product, summed along the row,
    laid as a column and scaled by the word `s`, reads at `(r, 0)` the run's sum of row `r` times the scale. -/
theorem run_column_apply {w : ℕ} (o : ℕ) (ho : o + w ≤ 16) (x0 x1 : FVec Ideal S5000x16 .f32)
    (hs : S5000x16.Slices ![0, o] ⟨2, ![5000, w]⟩) (hr : Shape.Reduces ⟨2, ![5000, w]⟩ [1] S5000)
    (hc : S5000.ShapeCasts S5000x1) (hφ : FKind.Formats .f32) (hacc : (0x00000000#32 : BitVec 32) = 0x00000000#32)
    (s : BitVec 32) (r : Fin 5000) (c : Fin 1) :
    mulf (shapeCast S5000x1
        (multiReduction .add [1] S5000 (extractStridedSlice ⟨2, ![5000, w]⟩ ![0, o] (mulf x0 x1) hs) 0x00000000#32 hr hφ hacc) hc)
      (broadcast S5000x1 (Scalar.ofBits (F := Ideal) .f32 s)) (ix2 r c)
      = runSum (rowProd x0 x1 r) o w ho * Ideal.ofBits .f32 s := by
  show shapeCast S5000x1 _ hc (ix2 r c) * Ideal.ofBits .f32 s = _
  rw [column_apply, lane_sum_apply]
  refine congrArg (· * Ideal.ofBits .f32 s) (Finset.sum_congr rfl fun k _ => ?_)
  have hk : o + k.val < 16 := by have := k.isLt; omega
  exact slice_apply o (mulf x0 x1) hs r k hk

/-! ## The four stored columns -/

theorem col0_apply (x0 x1 : FVec Ideal S5000x16 .f32) (r : Fin 5000) (c : Fin 1) :
    k0_pay2 (F := Ideal) x0 x1 (ix2 r c) = rowOut (rowProd x0 x1 r) 0 := by
  unfold k0_pay2 k0_pay1
  show extractStridedSlice S5000x1 ![0, 0] (mulf x0 x1) _ (ix2 r c) * Ideal.ofBits .f32 0x3F800000#32
    = runSum (rowProd x0 x1 r) 0 1 (by norm_num) * Ideal.ofBits .f32 0x3F800000#32
  rw [slice_apply 0 (mulf x0 x1) _ r c (by have := c.isLt; omega)]
  unfold runSum
  rw [Fin.sum_univ_one]
  have hc : c = 0 := Subsingleton.elim _ _
  subst hc
  rfl

theorem col1_apply (x0 x1 : FVec Ideal S5000x16 .f32) (r : Fin 5000) (c : Fin 1) :
    k0_pay3 (F := Ideal) x0 x1 (ix2 r c) = rowOut (rowProd x0 x1 r) 1 := by
  unfold k0_pay3 k0_pay1
  exact run_column_apply 1 (by norm_num) x0 x1 _ _ _ _ _ _ r c

theorem col2_apply (x0 x1 : FVec Ideal S5000x16 .f32) (r : Fin 5000) (c : Fin 1) :
    k0_pay4 (F := Ideal) x0 x1 (ix2 r c) = rowOut (rowProd x0 x1 r) 2 := by
  unfold k0_pay4 k0_pay1
  exact run_column_apply 4 (by norm_num) x0 x1 _ _ _ _ _ _ r c

theorem col3_apply (x0 x1 : FVec Ideal S5000x16 .f32) (r : Fin 5000) (c : Fin 1) :
    k0_pay5 (F := Ideal) x0 x1 (ix2 r c) = rowOut (rowProd x0 x1 r) 3 := by
  unfold k0_pay5 k0_pay1
  exact run_column_apply 9 (by norm_num) x0 x1 _ _ _ _ _ _ r c

end Cert.KernelIdeal.Blocks

end
-- ==== Proof.KernelArray.lean ====
/-
  From the four stored columns to the whole result array, at the ideal values.

  The four column stores tile the 5000-by-4 output block, and column `l` at row `r` is output `l` of row `r`'s products,
  so the block the body leaves is one function of the two input blocks (`blockOut`).  Block `t` of every window starts
  at row `5000 t` of its array and at column 0, so what point `t` writes back is `rowsOut` of the two argument arrays
  read through block `t` of the result.  Row `n` of the result lies in block `n / 5000`, so the blocks cover the array
  and it ends holding `rowsOut` of the arguments.
-/
import proofs.«128526_j53154515255873_1_alg».proof.Proof.KernelBlocks

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Value Cert.SegmentLaw

/-! ## The output block as one function of the input blocks -/

/-- Entry `(r, l)` of the output block: output `l` of row `r`'s sixteen products. -/
def blockOut (x0 x1 : FVec Ideal S5000x16 .f32) : S5000x4.Idx → EReal :=
  fun y => rowOut (rowProd x0 x1 (y 0)) (y 1)

theorem blockOut_ix2 (x0 x1 : FVec Ideal S5000x16 .f32) (r : Fin 5000) (l : Fin 4) :
    blockOut x0 x1 (ix2 r l) = rowOut (rowProd x0 x1 r) l := rfl

/-- The four stores, each one column, leave `blockOut` of the two loaded blocks. -/
theorem out_apply (x0 x1 : Vec Ideal S5000x16 .f32) (y : S5000x4.Idx) :
    out0_2 (F := Ideal) x0 x1 y = blockOut x0 x1 y := by
  unfold out0_2
  simp only [View.ld_unit_zero (S := S5000x16) hz]
  refine View.canon_apply_of_pieces (Val := Elt Ideal) (S := S5000x4) (e := .f32) (blockOut x0 x1) _ ?_ y (cover0_2 _ _ _ _ y)
  intro p hp x
  simp only [List.mem_cons, List.mem_nil_iff, or_false] at hp
  rcases hp with rfl | rfl | rfl | rfl
  · obtain ⟨r, c, rfl⟩ : ∃ (r : Fin 5000) (c : Fin 1), x = ix2 r c := ⟨x 0, x 1, eq_ix2 x⟩
    have he : r0_4.emb (ix2 r c) = ix2 r (3 : Fin 4) := funext fun a => Fin.ext (by
      match a with
      | ⟨0, _⟩ => show 0 + 1 * r.val = r.val; omega
      | ⟨1, _⟩ => show 3 + 1 * c.val = 3; have := c.isLt; omega)
    show k0_pay5 x0 x1 (ix2 r c) = blockOut x0 x1 (r0_4.emb (ix2 r c))
    rw [he, blockOut_ix2, col3_apply]
  · obtain ⟨r, c, rfl⟩ : ∃ (r : Fin 5000) (c : Fin 1), x = ix2 r c := ⟨x 0, x 1, eq_ix2 x⟩
    have he : r0_3.emb (ix2 r c) = ix2 r (2 : Fin 4) := funext fun a => Fin.ext (by
      match a with
      | ⟨0, _⟩ => show 0 + 1 * r.val = r.val; omega
      | ⟨1, _⟩ => show 2 + 1 * c.val = 2; have := c.isLt; omega)
    show k0_pay4 x0 x1 (ix2 r c) = blockOut x0 x1 (r0_3.emb (ix2 r c))
    rw [he, blockOut_ix2, col2_apply]
  · obtain ⟨r, c, rfl⟩ : ∃ (r : Fin 5000) (c : Fin 1), x = ix2 r c := ⟨x 0, x 1, eq_ix2 x⟩
    have he : r0_2.emb (ix2 r c) = ix2 r (1 : Fin 4) := funext fun a => Fin.ext (by
      match a with
      | ⟨0, _⟩ => show 0 + 1 * r.val = r.val; omega
      | ⟨1, _⟩ => show 1 + 1 * c.val = 1; have := c.isLt; omega)
    show k0_pay3 x0 x1 (ix2 r c) = blockOut x0 x1 (r0_2.emb (ix2 r c))
    rw [he, blockOut_ix2, col1_apply]
  · obtain ⟨r, c, rfl⟩ : ∃ (r : Fin 5000) (c : Fin 1), x = ix2 r c := ⟨x 0, x 1, eq_ix2 x⟩
    have he : r0_1.emb (ix2 r c) = ix2 r (0 : Fin 4) := funext fun a => Fin.ext (by
      match a with
      | ⟨0, _⟩ => show 0 + 1 * r.val = r.val; omega
      | ⟨1, _⟩ => show 0 + 1 * c.val = 0; have := c.isLt; omega)
    show k0_pay2 x0 x1 (ix2 r c) = blockOut x0 x1 (r0_1.emb (ix2 r c))
    rw [he, blockOut_ix2, col0_apply]

/-! ## A block of the result is the whole-array function read through the block -/

/-- If the two input blocks are the arrays `X0`, `X1` read from row `5000 b` on (all sixteen columns) and the output
    block sits at rows `5000 b …` of the result (all four columns), then `blockOut` of the input blocks is `rowsOut` of
    the arrays at the output block's place. -/
theorem blockOut_read (X0 X1 : S2000000x16.Idx → EReal) (e0 e1 : S5000x16.Idx → S2000000x16.Idx)
    (e2 : S5000x4.Idx → S2000000x4.Idx) (b : ℕ)
    (h0 : ∀ (r : Fin 5000) (d : Fin 16), (e0 (ix2 r d) 0).val = b * 5000 + r.val ∧ (e0 (ix2 r d) 1).val = d.val)
    (h1 : ∀ (r : Fin 5000) (d : Fin 16), (e1 (ix2 r d) 0).val = b * 5000 + r.val ∧ (e1 (ix2 r d) 1).val = d.val)
    (h2 : ∀ (r : Fin 5000) (l : Fin 4), (e2 (ix2 r l) 0).val = b * 5000 + r.val ∧ (e2 (ix2 r l) 1).val = l.val)
    (j : S5000x4.Idx) :
    blockOut (fun y => X0 (e0 y)) (fun y => X1 (e1 y)) j = rowsOut X0 X1 (e2 j) := by
  obtain ⟨r, l, rfl⟩ : ∃ (r : Fin 5000) (l : Fin 4), j = ix2 r l := ⟨j 0, j 1, eq_ix2 j⟩
  have hl : (e2 (ix2 r l)) 1 = l := Fin.ext (h2 r l).2
  have e0eq : ∀ d : Fin 16, e0 (ix2 r d) = ix2 ((e2 (ix2 r l)) 0) d := fun d => funext fun a => Fin.ext (by
    match a with
    | ⟨0, _⟩ => show (e0 (ix2 r d) 0).val = (e2 (ix2 r l) 0).val; rw [(h0 r d).1, (h2 r l).1]
    | ⟨1, _⟩ => exact (h0 r d).2)
  have e1eq : ∀ d : Fin 16, e1 (ix2 r d) = ix2 ((e2 (ix2 r l)) 0) d := fun d => funext fun a => Fin.ext (by
    match a with
    | ⟨0, _⟩ => show (e1 (ix2 r d) 0).val = (e2 (ix2 r l) 0).val; rw [(h1 r d).1, (h2 r l).1]
    | ⟨1, _⟩ => exact (h1 r d).2)
  show rowOut (fun d => X0 (e0 (ix2 r d)) * X1 (e1 (ix2 r d))) l
    = rowOut (fun d => X0 (ix2 ((e2 (ix2 r l)) 0) d) * X1 (ix2 ((e2 (ix2 r l)) 0) d)) ((e2 (ix2 r l)) 1)
  rw [hl]
  exact congrArg (fun z => rowOut z l) (funext fun d => by rw [e0eq d, e1eq d]; rfl)

variable (m : (ℓ : Loc nD τ sig) → Buf (Elt Ideal) ℓ) (ρ : Dev nD → PrngReg)

/-- The printed index maps, decided over the 400 grid points: every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsOut` of the argument arrays. -/
theorem flushed_eq (c : Dev nD) (t : Fin cfg0.N) :
    (dats m 0 c).flushed 2 t
      = ((cfg0.win 2).blk t).view.read (Elt Ideal) (rowsOut (V m c main_arg0) (V m c main_arg1)) := by
  rw [flushed2]
  obtain ⟨f0, f1, f2, f3, f4, f5⟩ := idx_facts t
  funext j
  show out0_2 (fun y => V m c main_arg0 (((cfg0.win 0).blk t).view.emb y))
      (fun y => V m c main_arg1 (((cfg0.win 1).blk t).view.emb y)) j
    = rowsOut (V m c main_arg0) (V m c main_arg1) (((cfg0.win 2).blk t).view.emb j)
  rw [out_apply]
  refine blockOut_read _ _ _ _ _ t.val (fun r d => ⟨?_, ?_⟩) (fun r d => ⟨?_, ?_⟩) (fun r l => ⟨?_, ?_⟩) j
  · show win0_0.index t (0 : Fin 2) * 5000 + 1 * r.val = t.val * 5000 + r.val; rw [f0]; omega
  · show win0_0.index t (1 : Fin 2) * 16 + 1 * d.val = d.val; rw [f1]; omega
  · show win0_1.index t (0 : Fin 2) * 5000 + 1 * r.val = t.val * 5000 + r.val; rw [f2]; omega
  · show win0_1.index t (1 : Fin 2) * 16 + 1 * d.val = d.val; rw [f3]; omega
  · show win0_2.index t (0 : Fin 2) * 5000 + 1 * r.val = t.val * 5000 + r.val; rw [f4]; omega
  · show win0_2.index t (1 : Fin 2) * 4 + 1 * l.val = l.val; rw [f5]; omega

/-- An index of the result is in point `t`'s block iff each coordinate is in the block's range on its axis. -/
theorem mem_blk (t : Fin cfg0.N) (i : S2000000x4.Idx) :
    i ∈ ((cfg0.win 2).blk t).view.set ↔ ∀ a : Fin 2, win0_2.index t a * S5000x4.size a ≤ (i a).val
      ∧ (i a).val < win0_2.index t a * S5000x4.size a + S5000x4.size a := by
  show i ∈ ((View.whole main_v0).slice (win0_2.rect t)).set ↔ _
  rw [View.set_slice_whole, Rect.mem_set_unit]
  exact Iff.rfl

/-- Row `n` of the result lies in the block of point `n / 5000`: the blocks cover the array. -/
theorem cover (i : S2000000x4.Idx) :
    ∃ t : Fin cfg0.N, (cfg0.win 2).flush t = true ∧ i ∈ ((cfg0.win 2).blk t).view.set := by
  have hN : cfg0.N = 400 := N_0
  have hi0 : (i 0).val < 2000000 := (i 0).isLt
  have hi1 : (i 1).val < 4 := (i 1).isLt
  have ht : (i 0).val / 5000 < cfg0.N := by rw [hN]; omega
  refine ⟨⟨(i 0).val / 5000, ht⟩, flush0_2 _, ?_⟩
  rw [mem_blk]
  obtain ⟨-, -, -, -, f4, f5⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [f4]
    show (i 0).val / 5000 * 5000 ≤ (i 0).val ∧ (i 0).val < (i 0).val / 5000 * 5000 + 5000
    omega
  | ⟨1, _⟩ =>
    show win0_2.index ⟨(i 0).val / 5000, ht⟩ (1 : Fin 2) * 4 ≤ (i 1).val
      ∧ (i 1).val < win0_2.index ⟨(i 0).val / 5000, ht⟩ (1 : Fin 2) * 4 + 4
    rw [f5]
    omega

/-- So the result array ends holding `rowsOut` of the two argument arrays. -/
theorem final (c : Dev nD) :
    (dats m 0 c).arrAt 2 cfg0.N
      = rowsOut (m ((c : Thread nD τ).loc main_arg0)) (m ((c : Thread nD τ).loc main_arg1)) :=
  (dats m 0 c).arrAt_eq_of_cover 2 (rowsOut (V m c main_arg0) (V m c main_arg1)) (fun t _ => flushed_eq m c t) cover

/-- The kernel's run, read: every weakly fair execution terminates with the result array at `rowsOut` of the
    arguments and the arguments unchanged. -/
theorem run : θ_run defs (onTc (τ := τ) (main (F := Ideal))) ⟨m, fun _ => 0, ρ⟩ fun r => ∀ c : Dev nD,
      r.2.mem ((c : Thread nD τ).loc main_v0)
          = rowsOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.ReferenceRun.lean ====
/-
  The reference program read back as a run: it lays down the constant 16-by-4 table, multiplies the two arguments
  entry by entry, and contracts the product's 16 columns against the table's rows.  Every weakly fair execution ends
  with the result buffer at that composed term of the two argument arrays, and leaves the arguments as they were.
-/
import proofs.«128526_j53154515255873_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The constant table: entry `(d, l)` is the float whose word stands at row-major position `4 d + l` of the literal list. -/
abbrev table : (⟨S16x4, .f32⟩ : BufTy).Contents (Elt F) := fun i => FloatOps.ofBits .f32 (lit0 (S16x4.rowMajor i))

/-- The three host operations, in order: the table, the entrywise product, the contraction. -/
abbrev ops : List (HloOp τ sig (Elt F)) :=
  [ nullary main_cst (fun i => FloatOps.ofBits .f32 (lit0 (S16x4.rowMajor i))),
    binary main_arg0 main_arg1 main_v0 (mulf : (⟨S2000000x16, .f32⟩ : BufTy).Contents (Elt F) → (⟨S2000000x16, .f32⟩ : BufTy).Contents (Elt F) → (⟨S2000000x16, .f32⟩ : BufTy).Contents (Elt F)),
    binary main_v0 main_cst main_v1 ((fun l r => Host.dotGeneral dot_S2000000x16_S16x4_S2000000x4_1_0_0_1_n_n none l r) : (⟨S2000000x16, .f32⟩ : BufTy).Contents (Elt F) → (⟨S16x4, .f32⟩ : BufTy).Contents (Elt F) → (⟨S2000000x4, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub ..⟩

/-- From any memory with zero counters every weakly fair execution of the reference terminates; the result buffer
    holds the contraction of the arguments' entrywise product against the table, and both arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = Host.dotGeneral dot_S2000000x16_S16x4_S2000000x4_1_0_0_1_n_n none
              (mulf (m ((c.tc : Thread nD τ).loc main_arg0)) (m ((c.tc : Thread nD τ).loc main_arg1))) (table (F := F))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.ReferenceRows.lean ====
/-
  The reference's result, at the ideal values, is `rowsOut` of its two arguments: its contraction of the entrywise
  product against the constant table reads, at entry `(n, l)`, the sum over the sixteen columns `d` of
  `x (n, d) · y (n, d)` times the table's entry `(d, l)`; column `l` of the table is that column's scale on its run of
  rows and zero elsewhere (decided on the 64 literal words), so the sum is output `l` of the row of products.
-/
import proofs.«128526_j53154515255873_1_alg».proof.Proof.ReferenceRun
import proofs.«128526_j53154515255873_1_alg».proof.Proof.SegmentLaw
import Idealize.ShloMosaic.PureOps.Ideal.Laws
import Idealize.ShloMosaic.Lib.ValueIdx
import Idealize.ShloMosaic.Lib.StackMember

noncomputable section

open Idealize.ShloMosaic Idealize.ShloMosaic.TcCoe Idealize.SL.Sem Idealize.ShloMosaic.ValueIdx
open scoped BigOperators

namespace Cert.ReferenceIdeal.Rows

open Cert.ReferenceIdeal Cert.ReferenceIdeal.Gen Cert.SegmentLaw

/-- The literal table, column by column: the word at row-major position `4 d + l` is column `l`'s word for row `d`. -/
theorem table_col : ∀ (l : Fin 4) (d : Fin 16), lit0 (S16x4.rowMajor (ix2 d l)) = colWord l d := by decide

/-- The contraction of the entrywise product against the table is `rowsOut`. -/
theorem result_eq (x y : FVec Ideal S2000000x16 .f32) :
    Host.dotGeneral (φ₁ := .f32) (φ₂ := .f32) dot_S2000000x16_S16x4_S2000000x4_1_0_0_1_n_n none (mulf x y)
        (HostRun.table (F := Ideal))
      = rowsOut x y := by
  funext i
  obtain ⟨n, l, rfl⟩ : ∃ (n : Fin 2000000) (l : Fin 4), i = ix2 n l := ⟨i 0, i 1, eq_ix2 i⟩
  show Host.dotGeneral (φ₁ := .f32) (φ₂ := .f32) (DotDims.plain 2000000 16 4) none (mulf x y)
    (HostRun.table (F := Ideal)) (ix2 n l) = _
  rw [StackMember.dotGeneral_plain_apply]
  show ∑ d : Fin 16, (x (ix2 n d) * y (ix2 n d)) * Ideal.ofBits .f32 (lit0 (S16x4.rowMajor (ix2 d l)))
    = rowOut (fun d => x (ix2 n d) * y (ix2 n d)) l
  simp only [table_col]
  exact contract_col _ l

end Cert.ReferenceIdeal.Rows

end
-- ==== Proof.lean ====
/-
  Segment-wise inner products of two 2,000,000-by-16 arrays: `out (n, l) = (∑ over the l-th run of columns d of
  x (n, d) · y (n, d)) · s l`, the runs of widths 1, 3, 5, 7 and `s l` the float nearest `1 / √(2 l + 1)`.

  The kernel forms the entrywise product of a 5000-row block, sums each run along the row and scales the sum; the
  reference contracts the entrywise product against a constant 16-by-4 table that holds `s l` on column `l`'s run of
  rows and zero elsewhere.  The two programs carry the same four scale words.  On the extended reals a product with
  zero is zero, so the reference's contraction keeps only each run's terms, and a factor that is a nonnegative real
  distributes over any sum of extended reals, so scaling the terms and scaling the sum agree (Proof/SegmentLaw.lean).
  No finiteness of the inputs is used.

  Proof/KernelBlocks.lean and Proof/KernelArray.lean read the kernel's result array as `rowsOut` of the arguments;
  Proof/ReferenceRun.lean and Proof/ReferenceRows.lean do the same for the reference.  The three frames are the two
  generated kernel frames and the reference's run with its result dropped; the idealization rewrote nothing, so the
  fourth claim is trivial; the fifth sets the two runs side by side.
-/
import proofs.«128526_j53154515255873_1_alg».proof.Defs
import proofs.«128526_j53154515255873_1_alg».proof.Proof.Gen.Kernel
import proofs.«128526_j53154515255873_1_alg».proof.Proof.Gen.Kernel.Frame
import proofs.«128526_j53154515255873_1_alg».proof.Proof.Gen.KernelIdeal
import proofs.«128526_j53154515255873_1_alg».proof.Proof.Gen.KernelIdeal.Frame
import proofs.«128526_j53154515255873_1_alg».proof.Proof.Gen.ReferenceIdeal
import proofs.«128526_j53154515255873_1_alg».proof.Proof.Gen.Pre_finite_inputs
import proofs.«128526_j53154515255873_1_alg».proof.Proof.KernelArray
import proofs.«128526_j53154515255873_1_alg».proof.Proof.ReferenceRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

/-- Both result arrays end at `rowsOut` of arguments that agree. -/
theorem algebraic : Cert.algebraic_KernelIdeal_ReferenceIdeal := by
  intro m ρ m' ρ' _ hagree
  refine ⟨fun c => Cert.SegmentLaw.rowsOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2]
  exact Cert.ReferenceIdeal.Rows.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
